-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S768x768 : Shape := ⟨2, ![768, 768]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S64x512x768 .f32) (main_arg1 : FVec F S768x768 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  main_v8
-- ==== Kernel.lean ====
abbrev S64x512x768 : Shape := ⟨3, ![64, 512, 768]⟩
abbrev S768x768 : Shape := ⟨2, ![768, 768]⟩
abbrev S64x512x512 : Shape := ⟨3, ![64, 512, 512]⟩
abbrev S1x512x768 : Shape := ⟨3, ![1, 512, 768]⟩
abbrev S1x512x512 : Shape := ⟨3, ![1, 512, 512]⟩
abbrev S512x768 : Shape := ⟨2, ![512, 768]⟩
abbrev S512 : Shape := ⟨1, ![512]⟩
abbrev S512x1 : Shape := ⟨2, ![512, 1]⟩
abbrev S768x512 : Shape := ⟨2, ![768, 512]⟩
abbrev S512x512 : Shape := ⟨2, ![512, 512]⟩
abbrev S1x512 : Shape := ⟨2, ![1, 512]⟩

abbrev nBuf : Space → Nat
  | .hbm => 5
  | .vmem => 5
  | .smem => 0
  | _ => 0

abbrev bufTy : (tb : Table) → Fin (tcTables nBuf tb) → BufTy
  | .hbm, ⟨0, _⟩ => ⟨S64x512x768, .f32⟩
  | .hbm, ⟨1, _⟩ => ⟨S768x768, .f32⟩
  | .hbm, ⟨2, _⟩ => ⟨S768x768, .f32⟩
  | .hbm, ⟨3, _⟩ => ⟨S768x768, .bf16⟩
  | .hbm, ⟨4, _⟩ => ⟨S64x512x512, .f32⟩
  | .local _ .vmem, ⟨0, _⟩ => ⟨S1x512x768, .f32⟩
  | .local _ .vmem, ⟨1, _⟩ => ⟨S1x512x768, .f32⟩
  | .local _ .vmem, ⟨2, _⟩ => ⟨S768x768, .bf16⟩
  | .local _ .vmem, ⟨3, _⟩ => ⟨S1x512x512, .f32⟩
  | .local _ .vmem, ⟨4, _⟩ => ⟨S1x512x512, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S768x768_S768x768_1_0 : S768x768.Transposes [1, 0] S768x768
  bitsLt_bf16_f32 : FTy.bits .bf16 < FTy.bits .f32
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  reduces_S512x768_S512 : S512x768.Reduces [1] S512
  shapeCasts_S512_S512x1 : S512.ShapeCasts S512x1
  transposes_S512x768_p1_0_S768x512 : S512x768.Transposes [1, 0] S768x512
  transposes_S512x1_p1_0_S1x512 : S512x1.Transposes [1, 0] S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x768_S768x768_S512x768_1_0_0_1_n_n_wf : DotDims.WF S512x768 S768x768 S512x768 [1] [0] [0] [1] [] []
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S64x512x768.size a
  hwx0_0 : ∀ i : grid0.Coords, EltTy.bits .f32 = 32 ∨ (Rect.block (s := S64x512x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .f32 = 32 ∨ (Rect.block (s := S64x512x512) S1x512x512.size (cc0_transform_2 i) (hinb0_2 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S768x768 : Shape := ⟨2, ![768, 768]⟩
abbrev S_ : Shape := ⟨0, ![]⟩
abbrev S64x512 : Shape := ⟨2, ![64, 512]⟩
abbrev S64x512x512 : Shape := ⟨3, ![64, 512, 512]⟩
abbrev S64x512x1 : Shape := ⟨3, ![64, 512, 1]⟩
abbrev S64x1x512 : Shape := ⟨3, ![64, 1, 512]⟩

abbrev nBuf : Space → Nat
  | .hbm => 16
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S768x768, .f32⟩
  | .hbm, ⟨2, _⟩ => ⟨S64x512x768, .f32⟩
  | .hbm, ⟨3, _⟩ => ⟨S64x512x768, .f32⟩
  | .hbm, ⟨4, _⟩ => ⟨S_, .f32⟩
  | .hbm, ⟨5, _⟩ => ⟨S64x512, .f32⟩
  | .hbm, ⟨6, _⟩ => ⟨S64x512x512, .f32⟩
  | .hbm, ⟨7, _⟩ => ⟨S64x512x1, .f32⟩
  | .hbm, ⟨8, _⟩ => ⟨S64x1x512, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .f32⟩
  | .hbm, ⟨15, _⟩ => ⟨S64x512x512, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  reducesTo_S64x512x768_S64x512_d2 : S64x512x768.ReducesTo [2] S64x512
  h_S_ : 0 < S_.numel
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  dot_S64x512x768_S768x768_S64x512x768_2_1_01_0_n_n_wf : DotDims.WF S64x512x768 S768x768 S64x512x768 [2] [1] [0, 1] [0] [] []
  dot_S64x512x768_S64x512x768_S64x512x512_2_2_1_1_0_0_wf : DotDims.WF S64x512x768 S64x512x768 S64x512x512 [2] [2] [1] [1] [0] [0]

variable [Facts₀]

def dot_S64x512x768_S768x768_S64x512x768_2_1_01_0_n_n : DotDims S64x512x768 S768x768 S64x512x768 where
  lhsContracting := [2]
  rhsContracting := [1]
  lhsNonContracting := [0, 1]
  rhsNonContracting := [0]
  lhsBatch := []
  rhsBatch := []
  wf := dot_S64x512x768_S768x768_S64x512x768_2_1_01_0_n_n_wf
def dot_S64x512x768_S64x512x768_S64x512x512_2_2_1_1_0_0 : DotDims S64x512x768 S64x512x768 S64x512x512 where
  lhsContracting := [2]
  rhsContracting := [2]
  lhsNonContracting := [1]
  rhsNonContracting := [1]
  lhsBatch := [0]
  rhsBatch := [0]
  wf := dot_S64x512x768_S64x512x768_S64x512x512_2_2_1_1_0_0_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Body.lean ====
/-
  The kernel body's stored value at an index, as a function of the two blocks it loads.

  The body loads one batch's rows `x0` (a block [1, 512, 768]) and the transposed matrix `x1` ([768, 768], rows are
  input features, columns output features). It multiplies the rows by the matrix, `p (s, g) = ∑ h, x0 (0, s, h) · x1 (h, g)`
  (the change of float format before the product is the identity on the extended reals); sums the squares of each
  row of `p` into a column; multiplies `p` by its own transpose; adds the column of norms, spread along the rows, to
  the same column transposed and spread down the rows; and subtracts twice the product. Each operation is read at
  an index below, over explicit coordinates, and the stored value at `(u, s, t)` is
  `(∑ g, p (s, g)² + ∑ g, p (t, g)²) − 2 · ∑ g, p (s, g) · p (t, g)`.
-/
import proofs.«120841_j86912958202203_1_alg».proof.Proof.Gen.KernelIdeal.Skeleton
import proofs.«120841_j86912958202203_1_alg».proof.Proof.LibPlainDot
import proofs.«120841_j86912958202203_1_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.PairDist.Body

open Cert.KernelIdeal Cert.KernelIdeal.Gen
open Idealize.ShloMosaic Idealize.ShloMosaic.ValueIdx

variable (x0 : FVec Ideal S1x512x768 .f32) (x1 : FVec Ideal S768x768 .bf16)

/-- The block's rows times the transposed matrix. -/
def pblk : FVec Ideal S512x768 .f32 :=
  matmul dot_S512x768_S768x768_S512x768_1_0_0_1_n_n none
    (truncf .bf16 (shapeCast S512x768 x0 shapeCasts_S1x512x768_S512x768) bitsLt_bf16_f32)
    (shapeCast S768x768 x1 shapeCasts_S768x768_S768x768) (constant S512x768 .f32 0x00000000#32)

/-- Entry `(s, g)` of the product: row `s` of the block against column `g` of the transposed matrix. -/
theorem pblk_apply (s : Fin 512) (g : Fin 768) :
    pblk x0 x1 (ix2 s g) = ∑ h : Fin 768, x0 (ix3 (0 : Fin 1) s h) * x1 (ix2 h g) := by
  unfold pblk
  refine (Cert.PlainDot.matmul_zero_apply (M := 512) (K := 768) (N := 768)
    dot_S512x768_S768x768_S512x768_1_0_0_1_n_n rfl none _ _ (ix2 s g)).trans ?_
  refine Finset.sum_congr rfl fun h _ => ?_
  rw [shapeCast_self, truncf_apply, shapeCast_1ab_ab_apply]

/-- The rows' squared norms, as a column. -/
def sqcol : FVec Ideal S512x1 .f32 :=
  shapeCast S512x1
    (multiReduction .add [1] S512 (mulf (pblk x0 x1) (pblk x0 x1)) 0x00000000#32 reduces_S512x768_S512 (.inl rfl) rfl)
    shapeCasts_S512_S512x1

/-- Row `s` of the column is the sum of the squares of row `s` of the product. -/
theorem sqcol_apply (s : Fin 512) (u : Fin 1) :
    sqcol x0 x1 (ix2 s u) = ∑ g : Fin 768, pblk x0 x1 (ix2 s g) * pblk x0 x1 (ix2 s g) := by
  unfold sqcol
  rw [Cert.Keepdims.shapeCast_a_a1_apply]
  refine (Ideal.multiReduction_add_single (mulf (pblk x0 x1) (pblk x0 x1)) 0x00000000#32 reduces_S512x768_S512
    (.inl rfl) rfl (ix1 s)).trans ?_
  refine Finset.sum_congr rfl fun g _ => ?_
  have e : reduces_S512x768_S512.lift (ix1 s) g = ix2 s g :=
    funext fun a => Fin.ext (by match a with | ⟨0, _⟩ => rfl | ⟨1, _⟩ => rfl)
  rw [mulf_apply, e]
  rfl

/-- The product times its own transpose. -/
def gramblk : FVec Ideal S512x512 .f32 :=
  matmul dot_S512x768_S768x512_S512x512_1_0_0_1_n_n none
    (truncf .bf16 (pblk x0 x1) bitsLt_bf16_f32)
    (transpose S768x512 [1, 0] (truncf .bf16 (pblk x0 x1) bitsLt_bf16_f32) transposes_S512x768_p1_0_S768x512)
    (constant S512x512 .f32 0x00000000#32)

/-- Entry `(s, t)` is the inner product of rows `s` and `t` of the product. -/
theorem gramblk_apply (s t : Fin 512) :
    gramblk x0 x1 (ix2 s t) = ∑ g : Fin 768, pblk x0 x1 (ix2 s g) * pblk x0 x1 (ix2 t g) := by
  unfold gramblk
  refine (Cert.PlainDot.matmul_zero_apply (M := 512) (K := 768) (N := 512)
    dot_S512x768_S768x512_S512x512_1_0_0_1_n_n rfl none _ _ (ix2 s t)).trans ?_
  refine Finset.sum_congr rfl fun g _ => ?_
  rw [transpose_ix2_apply, truncf_apply, truncf_apply]

/-- The stored value is the cast, to the block's shape, of: norms along rows plus norms along columns, minus twice
    the inner products. -/
theorem pay_eq : k0_pay1 x0 x1 =
    shapeCast S1x512x512
      (subf
        (addf (broadcastTo S512x512 (sqcol x0 x1) broadcasts_S512x1_S512x512)
          (broadcastTo S512x512 (transpose S1x512 [1, 0] (sqcol x0 x1) transposes_S512x1_p1_0_S1x512) broadcasts_S1x512_S512x512))
        (mulf (broadcast S512x512 (Scalar.ofBits (F := Ideal) .f32 0x40000000#32)) (gramblk x0 x1)))
      shapeCasts_S512x512_S1x512x512 := rfl

/-- The stored value at `(u, s, t)`. -/
theorem pay_apply (u : Fin 1) (s t : Fin 512) :
    k0_pay1 x0 x1 (ix3 u s t)
      = (sqcol x0 x1 (ix2 s (0 : Fin 1)) + sqcol x0 x1 (ix2 t (0 : Fin 1)))
        - Ideal.ofBits .f32 0x40000000#32 * gramblk x0 x1 (ix2 s t) := by
  rw [pay_eq, shapeCast_ab_1ab_apply, subf_apply, addf_apply, mulf_apply, Cert.Keepdims.broadcastTo_a1_ab_apply,
    broadcastTo_1b_ab_apply, transpose_ix2_apply, broadcast_apply]
  rfl

end Cert.PairDist.Body

end
-- ==== Proof.Spec.lean ====
/-
  The pairwise squared distance of projected points, as one function of the two argument arrays.

  For a batch `n`, the rows of `x` at that batch are projected by the matrix `b`:
  `p (n, s, g) = ∑ h, x (n, s, h) · b (g, h)`. A row's squared norm is `∑ g, p (n, s, g)²`, two rows' inner product
  is `∑ g, p (n, s, g) · p (n, t, g)`, and the entry `(n, s, t)` of the result is
  `(|p_s|² + |p_t|²) − 2 · ⟨p_s, p_t⟩`, the expansion of `|p_s − p_t|²`, on the extended reals. Both programs compute
  exactly this expression, factor by factor and in this grouping, so no law of the extended reals beyond the meaning
  of the operations is needed to join them, and the inputs' finiteness is never used.
-/
import Idealize.ShloMosaic.PureOps.Ideal
import Idealize.ShloMosaic.Lib.ValueIdx

noncomputable section

open scoped BigOperators

namespace Cert.PairDist

open Idealize.ShloMosaic Idealize.ShloMosaic.ValueIdx

/-- The points: 64 batches of 512 rows of 768 features. -/
abbrev XS : Shape := ⟨3, ![64, 512, 768]⟩
/-- The projection matrix, 768 output features by 768 input features. -/
abbrev BS : Shape := ⟨2, ![768, 768]⟩
/-- The result: per batch, a 512 by 512 table of squared distances. -/
abbrev OS : Shape := ⟨3, ![64, 512, 512]⟩

variable (x : XS.Idx → EReal) (b : BS.Idx → EReal)

/-- Feature `g` of row `s` of batch `n` after the projection: the row against row `g` of the matrix. -/
def proj (n : Fin 64) (s : Fin 512) (g : Fin 768) : EReal := ∑ h : Fin 768, x (ix3 n s h) * b (ix2 g h)

/-- The squared norm of a projected row. -/
def sqnorm (n : Fin 64) (s : Fin 512) : EReal := ∑ g : Fin 768, proj x b n s g * proj x b n s g

/-- The inner product of two projected rows of one batch. -/
def gram (n : Fin 64) (s t : Fin 512) : EReal := ∑ g : Fin 768, proj x b n s g * proj x b n t g

/-- The squared distance of rows `s` and `t` of batch `n`, by coordinates; `0x40000000` is the float `2`. -/
def distAt (n : Fin 64) (s t : Fin 512) : EReal :=
  (sqnorm x b n s + sqnorm x b n t) - Ideal.ofBits .f32 0x40000000#32 * gram x b n s t

/-- The whole result array. -/
def dist : OS.Idx → EReal := fun i => distAt x b (i 0) (i 1) (i 2)

theorem dist_ix3 (n : Fin 64) (s t : Fin 512) : dist x b (ix3 n s t) = distAt x b n s t := rfl

end Cert.PairDist

end
-- ==== Proof.Point.lean ====
/-
  One grid point's stored value is a slab of the squared-distance array.

  If the block of rows the body loads is batch `n` of `x`, and the matrix it loads is `b` transposed, then the product
  of the block by the matrix is the projection of that batch, and the value the body stores at `(u, s, t)` is the squared
  distance of rows `s` and `t` of batch `n`.
-/
import proofs.«120841_j86912958202203_1_alg».proof.Proof.Body
import proofs.«120841_j86912958202203_1_alg».proof.Proof.Spec

noncomputable section

open scoped BigOperators

namespace Cert.PairDist.Body

open Cert.KernelIdeal Cert.KernelIdeal.Gen
open Idealize.ShloMosaic Idealize.ShloMosaic.ValueIdx Cert.PairDist

/-- With the loaded block batch `n` of `x` and the loaded matrix the transpose of `b`, the stored value at `(u, s, t)` is
    the squared distance of rows `s` and `t` of batch `n`. -/
theorem point_value (X : XS.Idx → EReal) (B : BS.Idx → EReal) (n : Fin 64)
    (x0 : FVec Ideal S1x512x768 .f32) (x1 : FVec Ideal S768x768 .bf16)
    (h0 : ∀ (s : Fin 512) (h : Fin 768), x0 (ix3 (0 : Fin 1) s h) = X (ix3 n s h))
    (h1 : ∀ (h g : Fin 768), x1 (ix2 h g) = B (ix2 g h))
    (u : Fin 1) (s t : Fin 512) :
    k0_pay1 (F := Ideal) x0 x1 (ix3 u s t) = distAt X B n s t := by
  have hp : ∀ (s : Fin 512) (g : Fin 768), pblk x0 x1 (ix2 s g) = proj X B n s g := fun s g => by
    rw [pblk_apply]
    unfold proj
    exact Finset.sum_congr rfl fun h _ => by rw [h0, h1]
  rw [pay_apply, sqcol_apply, sqcol_apply, gramblk_apply]
  simp only [hp]
  rfl

end Cert.PairDist.Body

end
-- ==== Proof.Blocks.lean ====
/-
  From the grid points' blocks to the whole result array.

  The grid has one point per batch. Point `t` stages batch `t` of `x` (a block [1, 512, 768]), the whole transposed
  matrix (made before the launch by transposing `b`; its change of float format is the identity on the extended reals),
  and writes back slab `t` of the result (a block [1, 512, 512]). So what point `t` writes back is slab `t` of the
  squared-distance array; the 64 slabs cover the array; hence the array ends holding the squared distances.
-/
import proofs.«120841_j86912958202203_1_alg».proof.Proof.Gen.KernelIdeal.Value
import proofs.«120841_j86912958202203_1_alg».proof.Proof.Point
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.PairDist.Blocks

open Cert.KernelIdeal Cert.KernelIdeal.Gen Cert.KernelIdeal.Value
open Idealize.ShloMosaic.ValueIdx Cert.PairDist

variable (m : (ℓ : Loc nD τ sig) → Buf (Elt Ideal) ℓ) (ρ : Dev nD → PrngReg)

/-- The points as launched on core `c`. -/
abbrev xarr (c : Dev nD) : XS.Idx → EReal := m ((c : Thread nD τ).loc main_arg0)
/-- The projection matrix as launched on core `c`. -/
abbrev barr (c : Dev nD) : BS.Idx → EReal := m ((c : Thread nD τ).loc main_arg1)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The grid point as a batch number. -/
abbrev batch (t : Fin cfg0.N) : Fin 64 := Fin.cast N_0 t

/-- The printed index maps, decided over the 64 points: the points' window and the result's window move along the
    batch axis with the point, and the matrix's window stays at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The matrix the region finds: the host's transpose of `b`, its format changed. -/
theorem bt_eq (c : Dev nD) : (V m c main_v1 : S768x768.Idx → EReal) =
    truncf (F := Ideal) .bf16 (transpose S768x768 [1, 0] (m ((c : Thread nD τ).loc main_arg1)) transposes_S768x768_S768x768_1_0) bitsLt_bf16_f32 := by
  dsimp only [Gen.V, Gen.hostOps0]; after_results

/-- Its entry `(h, g)` is `b (g, h)`. -/
theorem bt_apply (c : Dev nD) (h g : Fin 768) : (V m c main_v1 : S768x768.Idx → EReal) (ix2 h g) = barr m c (ix2 g h) :=
  (congrFun (bt_eq m c) (ix2 h g)).trans
    (transpose_ix2_apply (a := 768) (b := 768) (m ((c : Thread nD τ).loc main_arg1)) transposes_S768x768_S768x768_1_0 h g)

/-- The points' block at grid point `t` is batch `t` of `x`. -/
theorem xblock_apply (c : Dev nD) (t : Fin cfg0.N) (y : S1x512x768.Idx) (k : S64x512x768.Idx)
    (hk0 : (k 0).val = t.val) (hk1 : (k 1).val = (y 1).val) (hk2 : (k 2).val = (y 2).val) :
    (iblk m c 0 t : FVec Ideal S1x512x768 .f32) y = xarr m c k := by
  obtain ⟨e0, e1, e2, -⟩ := idx_facts t
  unfold iblk
  rw [View.read_apply]
  show V m c main_arg0 _ = m (c.tc.loc main_arg0) _
  rw [V_main_arg0]
  congr 1
  funext a
  apply Fin.ext
  have hy0 : (y 0).val < 1 := (y 0).isLt
  match a with
  | ⟨0, _⟩ => show win0_0.index t (0 : Fin 3) * 1 + 1 * (y 0).val = (k 0).val; rw [e0, hk0]; omega
  | ⟨1, _⟩ => show win0_0.index t (1 : Fin 3) * 512 + 1 * (y 1).val = (k 1).val; rw [e1, hk1]; omega
  | ⟨2, _⟩ => show win0_0.index t (2 : Fin 3) * 768 + 1 * (y 2).val = (k 2).val; rw [e2, hk2]; omega

/-- The matrix's block at every grid point is the whole transposed matrix. -/
theorem mblock_apply (c : Dev nD) (t : Fin cfg0.N) (h g : Fin 768) :
    (iblk m c 1 t : FVec Ideal S768x768 .bf16) (ix2 h g) = barr m c (ix2 g h) := by
  obtain ⟨-, -, -, e3, e4, -⟩ := idx_facts t
  unfold iblk
  rw [View.read_apply]
  show V m c main_v1 _ = _
  refine Eq.trans (congrArg (V m c main_v1 : S768x768.Idx → EReal) ?_) (bt_apply m c h g)
  funext a
  apply Fin.ext
  match a with
  | ⟨0, _⟩ => show win0_1.index t (0 : Fin 2) * 768 + 1 * h.val = h.val; rw [e3]; omega
  | ⟨1, _⟩ => show win0_1.index t (1 : Fin 2) * 768 + 1 * g.val = g.val; rw [e4]; omega

/-- WHAT POINT `t` WRITES BACK is slab `t` of the squared-distance array. -/
theorem flushed_eq (c : Dev nD) (t : Fin cfg0.N) :
    (dats m 0 c).flushed 2 t = ((cfg0.win 2).blk t).view.read (Elt Ideal) (dist (xarr m c) (barr m c)) := by
  obtain ⟨-, -, -, -, -, e5, e6, e7⟩ := idx_facts t
  rw [Value.flushed2]
  unfold out0_2
  rw [View.canon_unit_zero zeros3]
  simp only [View.ld_unit_zero (S := S1x512x768) zeros3, View.ld_unit_zero (S := S768x768) zeros2]
  funext j
  obtain ⟨u, s, q, rfl⟩ : ∃ (u : Fin 1) (s q : Fin 512), j = ix3 u s q := ⟨j 0, j 1, j 2, eq_ix3 j⟩
  show k0_pay1 (F := Ideal) (iblk m c 0 t) (iblk m c 1 t) (ix3 u s q)
    = dist (xarr m c) (barr m c) (((cfg0.win 2).blk t).view.emb (ix3 u s q))
  have hu : u.val < 1 := u.isLt
  have hemb : ((cfg0.win 2).blk t).view.emb (ix3 u s q) = ix3 (batch t) s q := by
    funext a
    apply Fin.ext
    match a with
    | ⟨0, _⟩ => show win0_2.index t (0 : Fin 3) * 1 + 1 * u.val = t.val; rw [e5]; omega
    | ⟨1, _⟩ => show win0_2.index t (1 : Fin 3) * 512 + 1 * s.val = s.val; rw [e6]; omega
    | ⟨2, _⟩ => show win0_2.index t (2 : Fin 3) * 512 + 1 * q.val = q.val; rw [e7]; omega
  rw [hemb]
  exact Body.point_value (xarr m c) (barr m c) (batch t) (iblk m c 0 t) (iblk m c 1 t)
    (fun s h => xblock_apply m c t (ix3 (0 : Fin 1) s h) (ix3 (batch t) s h) rfl rfl rfl)
    (fun h g => mblock_apply m c t h g) u s q

/-- An index of the result is in point `t`'s slab iff each coordinate is in the slab's range on its axis. -/
theorem mem_slab (t : Fin cfg0.N) (i : S64x512x512.Idx) :
    i ∈ ((cfg0.win 2).blk t).view.set ↔ ∀ a : Fin 3, win0_2.index t a * S1x512x512.size a ≤ (i a).val ∧ (i a).val < win0_2.index t a * S1x512x512.size a + S1x512x512.size a := by
  show i ∈ ((View.whole main_v2).slice (win0_2.rect t)).set ↔ _
  rw [View.set_slice_whole, Rect.mem_set_unit]
  exact Iff.rfl

/-- Every index of the result lies in the slab of the point numbered by its batch. -/
theorem cover (i : S64x512x512.Idx) : ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 512 := (i 2).isLt
  refine ⟨Fin.cast N_0.symm (i 0), flush0_2 _, ?_⟩
  obtain ⟨-, -, -, -, -, e5, e6, e7⟩ := idx_facts (Fin.cast N_0.symm (i 0))
  rw [mem_slab]
  intro a
  match a with
  | ⟨0, _⟩ =>
    show win0_2.index (Fin.cast N_0.symm (i 0)) (0 : Fin 3) * 1 ≤ (i 0).val ∧ (i 0).val < win0_2.index (Fin.cast N_0.symm (i 0)) (0 : Fin 3) * 1 + 1
    rw [e5]; show (i 0).val * 1 ≤ (i 0).val ∧ (i 0).val < (i 0).val * 1 + 1; omega
  | ⟨1, _⟩ =>
    show win0_2.index (Fin.cast N_0.symm (i 0)) (1 : Fin 3) * 512 ≤ (i 1).val ∧ (i 1).val < win0_2.index (Fin.cast N_0.symm (i 0)) (1 : Fin 3) * 512 + 512
    rw [e6]; omega
  | ⟨2, _⟩ =>
    show win0_2.index (Fin.cast N_0.symm (i 0)) (2 : Fin 3) * 512 ≤ (i 2).val ∧ (i 2).val < win0_2.index (Fin.cast N_0.symm (i 0)) (2 : Fin 3) * 512 + 512
    rw [e7]; omega

/-- THE RESULT ARRAY after the run is the squared-distance array of the arguments as launched. -/
theorem final (c : Dev nD) : (dats m 0 c).arrAt 2 cfg0.N = dist (xarr m c) (barr m c) :=
  (dats m 0 c).arrAt_eq_of_cover 2 (dist (xarr m c) (barr m c)) (fun t _ => flushed_eq m c t) cover

/-- The kernel's run, read: the result at the squared distances, the arguments unchanged. -/
theorem run : θ_run defs (onTc (τ := τ) (main (F := Ideal))) ⟨m, fun _ => 0, ρ⟩ fun r => ∀ c : Dev nD,
      r.2.mem ((c : Thread nD τ).loc main_v2) = dist (xarr m c) (barr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.PairDist.Blocks

end
-- ==== Proof.RefSide.lean ====
/-
  The reference read at an index is the squared-distance function.

  Its host program computes the projection by a contraction of `x`'s last axis with `b`'s last axis, squares and sums it
  over the features for the norms, contracts the projection with itself over the features, batch by batch, for the
  inner products, places the norms along rows and along columns, and subtracts twice the inner products. Reading each
  stage at an index gives the specification's expression term by term; the only arithmetic step is that the sum's
  initial value, the float zero, adds nothing.
-/
import proofs.«120841_j86912958202203_1_alg».proof.Proof.Gen.ReferenceIdeal.Read
import proofs.«120841_j86912958202203_1_alg».proof.Proof.Spec

noncomputable section

open scoped BigOperators

namespace Cert.PairDist.Ref

open Cert.ReferenceIdeal Cert.ReferenceIdeal.Gen Cert.ReferenceIdeal.Read
open Idealize.ShloMosaic Idealize.ShloMosaic.ValueIdx Cert.PairDist

variable (x : XS.Idx → EReal) (b : BS.Idx → EReal)

/-- The projection's left operand index: the output's batch and row, the contraction's feature. -/
theorem lidx_proj (i : S64x512x768.Idx) (k : Fin 768) : lidx_main_v0 i k = ix3 (i 0) (i 1) k :=
  funext fun a => match a with | ⟨0, _⟩ => rfl | ⟨1, _⟩ => rfl | ⟨2, _⟩ => rfl

/-- Its right operand index: the output's feature as the matrix's row, the contraction's feature as its column. -/
theorem ridx_proj (i : S64x512x768.Idx) (k : Fin 768) : ridx_main_v0 i k = ix2 (i 2) k :=
  funext fun a => match a with | ⟨0, _⟩ => rfl | ⟨1, _⟩ => rfl

/-- The first stage is the projection. -/
theorem proj_at (i : S64x512x768.Idx) : val_main_v0 (F := Ideal) x b i = proj x b (i 0) (i 1) (i 2) := by
  rw [val_main_v0_apply]
  unfold proj
  exact Finset.sum_congr rfl fun k _ => by rw [lidx_proj, ridx_proj]; rfl

/-- The feature sum of the squared projection is a row's squared norm: the initial zero adds nothing. -/
theorem sqnorm_at (i : S64x512.Idx) : val_main_v2 (F := Ideal) x b i = sqnorm x b (i 0) (i 1) := by
  rw [val_main_v2_apply, val_main_cst_apply]
  show Ideal.ofBits .f32 0x00000000#32 + _ = _
  rw [Ideal.ofBits_zero_f32, zero_add]
  unfold sqnorm
  refine Finset.sum_congr rfl fun k _ => ?_
  rw [val_main_v1_apply, proj_at]
  rfl

/-- The batched contraction of the projection with itself is the inner product of two rows. -/
theorem gram_at (i : S64x512x512.Idx) : val_main_v3 (F := Ideal) x b i = gram x b (i 0) (i 1) (i 2) := by
  rw [val_main_v3_apply]
  unfold gram
  refine Finset.sum_congr rfl fun k _ => ?_
  rw [proj_at, proj_at]
  rfl

/-- The reference's result is the squared-distance array: the row norm, the column norm, and twice the inner
    product, each read through its broadcasts. -/
theorem result_eq : val_main_v11 (F := Ideal) x b = dist x b := by
  funext i
  rw [val_main_v11_apply, val_main_v8_apply, val_main_v10_apply, val_main_v6_apply, val_main_v7_apply,
    val_main_v4_apply, val_main_v5_apply, sqnorm_at, sqnorm_at, val_main_v9_apply, val_main_cst_0_apply, gram_at]
  rfl

end Cert.PairDist.Ref

end
-- ==== Proof.lean ====
/-
  The pairwise squared distances of projected points: the kernel against its plain reference, over the extended reals.

  For each of 64 batches the kernel projects 512 rows of 768 features by a 768 by 768 matrix, takes each projected
  row's squared norm and the inner products of all pairs of projected rows, and writes
  `(|p_s|² + |p_t|²) − 2 · ⟨p_s, p_t⟩` at `(s, t)`; one grid point per batch, the transposed matrix prepared once
  before the launch. The reference computes the same expression with whole-array contractions and broadcasts. Read at
  an index, both are the specification's `dist` (Proof/Spec.lean), term by term: the kernel's stored value at a point
  (Proof/Body.lean, Proof/Point.lean), the points' slabs covering the array (Proof/Blocks.lean), and the reference's
  stages (Proof/RefSide.lean). No law of the extended reals beyond the operations' meaning joins the two sides, so the
  inputs' finiteness is not used. The three frames are the generated frame runs, and the kernel has no idealization
  rewrites to account for.
-/
import proofs.«120841_j86912958202203_1_alg».proof.Defs
import proofs.«120841_j86912958202203_1_alg».proof.Proof.Gen.Kernel
import proofs.«120841_j86912958202203_1_alg».proof.Proof.Gen.Kernel.Skeleton
import proofs.«120841_j86912958202203_1_alg».proof.Proof.Gen.Kernel.Launch
import proofs.«120841_j86912958202203_1_alg».proof.Proof.Gen.Kernel.Points
import proofs.«120841_j86912958202203_1_alg».proof.Proof.Gen.Kernel.Frame
import proofs.«120841_j86912958202203_1_alg».proof.Proof.Gen.KernelIdeal
import proofs.«120841_j86912958202203_1_alg».proof.Proof.Gen.KernelIdeal.Skeleton
import proofs.«120841_j86912958202203_1_alg».proof.Proof.Gen.KernelIdeal.Launch
import proofs.«120841_j86912958202203_1_alg».proof.Proof.Gen.KernelIdeal.Points
import proofs.«120841_j86912958202203_1_alg».proof.Proof.Gen.KernelIdeal.Frame
import proofs.«120841_j86912958202203_1_alg».proof.Proof.Gen.ReferenceIdeal
import proofs.«120841_j86912958202203_1_alg».proof.Proof.Gen.Pre_finite_inputs
import proofs.«120841_j86912958202203_1_alg».proof.Proof.Gen.KernelIdeal.Value
import proofs.«120841_j86912958202203_1_alg».proof.Proof.Gen.ReferenceIdeal.Run
import proofs.«120841_j86912958202203_1_alg».proof.Proof.Gen.ReferenceIdeal.Read
import proofs.«120841_j86912958202203_1_alg».proof.Proof.Blocks
import proofs.«120841_j86912958202203_1_alg».proof.Proof.RefSide
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on `x` and `b`, the kernel's result array and the reference's both end holding the squared
    distances of the projected rows. -/
theorem algebraic : Cert.algebraic_KernelIdeal_ReferenceIdeal := by
  intro m ρ m' ρ' _ hagree
  refine ⟨fun c => Cert.PairDist.dist (Cert.PairDist.Blocks.xarr m c) (Cert.PairDist.Blocks.barr m c),
    Cert.PairDist.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  exact Cert.PairDist.Ref.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
